-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000x2 : Shape := ⟨2, ![1000000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S1000000x2 32) (main_arg2 : FVec F S256x256 .f32) (main_arg3 : FVec F S256 .f32) (main_arg4 : FVec F S256x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_v13 main_v16
-- ==== Kernel.lean ====
abbrev S100000x128 : Shape := ⟨2, ![100000, 128]⟩
abbrev S1000000x2 : Shape := ⟨2, ![1000000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩
abbrev S1000000x2x1 : Shape := ⟨3, ![1000000, 2, 1]⟩
abbrev S1000000x2x128 : Shape := ⟨3, ![1000000, 2, 128]⟩
abbrev S1000000x256 : Shape := ⟨2, ![1000000, 256]⟩
abbrev S1x256 : Shape := ⟨2, ![1, 256]⟩
abbrev S1x2 : Shape := ⟨2, ![1, 2]⟩
abbrev S8000x256 : Shape := ⟨2, ![8000, 256]⟩
abbrev S8000x2 : Shape := ⟨2, ![8000, 2]⟩

abbrev nBuf : Space → Nat
  | .hbm => 19
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1000000x2, .i32⟩
  | .hbm, ⟨2, _⟩ => ⟨S256x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S_, .i32⟩
  | .hbm, ⟨7, _⟩ => ⟨S1000000x2, .i32⟩
  | .hbm, ⟨8, _⟩ => ⟨S1000000x2, .i1⟩
  | .hbm, ⟨9, _⟩ => ⟨S_, .i32⟩
  | .hbm, ⟨10, _⟩ => ⟨S1000000x2, .i32⟩
  | .hbm, ⟨11, _⟩ => ⟨S1000000x2, .i32⟩
  | .hbm, ⟨12, _⟩ => ⟨S1000000x2, .i32⟩
  | .hbm, ⟨13, _⟩ => ⟨S1000000x2x1, .i32⟩
  | .hbm, ⟨14, _⟩ => ⟨S1000000x2x128, .f32⟩
  | .hbm, ⟨15, _⟩ => ⟨S1000000x256, .f32⟩
  | .hbm, ⟨16, _⟩ => ⟨S1x256, .f32⟩
  | .hbm, ⟨17, _⟩ => ⟨S1x2, .f32⟩
  | .hbm, ⟨18, _⟩ => ⟨S1000000x2, .f32⟩
  | .local _ .vmem, ⟨0, _⟩ => ⟨S8000x256, .f32⟩
  | .local _ .vmem, ⟨1, _⟩ => ⟨S8000x256, .f32⟩
  | .local _ .vmem, ⟨2, _⟩ => ⟨S256x256, .f32⟩
  | .local _ .vmem, ⟨3, _⟩ => ⟨S1x256, .f32⟩
  | .local _ .vmem, ⟨4, _⟩ => ⟨S256x2, .f32⟩
  | .local _ .vmem, ⟨5, _⟩ => ⟨S1x2, .f32⟩
  | .local _ .vmem, ⟨6, _⟩ => ⟨S8000x2, .f32⟩
  | .local _ .vmem, ⟨7, _⟩ => ⟨S8000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x128_S1000000x256 : S1000000x2x128.ShapeCasts S1000000x256
  shapeCasts_S256_S1x256 : S256.ShapeCasts S1x256
  shapeCasts_S2_S1x2 : S2.ShapeCasts S1x2
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  gather_S100000x128_S1000000x2x1_S1000000x2x128_2_0_n_n_0_2_1128_wf : GatherDims.WF S100000x128 S1000000x2x1 S1000000x2x128 [2] [0] [] [0] [] 2 ![1, 128]
  dot_S8000x256_S256x256_S8000x256_1_0_0_1_n_n_wf : DotDims.WF S8000x256 S256x256 S8000x256 [1] [0] [0] [1] [] []
  dot_S8000x256_S256x2_S8000x2_1_0_0_1_n_n_wf : DotDims.WF S8000x256 S256x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S1000000x256.size a
  hwx0_0 : ∀ i : grid0.Coords, EltTy.bits .f32 = 32 ∨ (Rect.block (s := S1000000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S256x2.size a
  hwx0_3 : ∀ i : grid0.Coords, EltTy.bits .f32 = 32 ∨ (Rect.block (s := S256x2) S256x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x2.size a ≤ S1000000x2.size a
  hwx0_5 : ∀ i : grid0.Coords, EltTy.bits .f32 = 32 ∨ (Rect.block (s := S1000000x2) S8000x2.size (cc0_transform_5 i) (hinb0_5 i)).WholeWords (EltTy.packing .f32)

variable [Facts₀]

def gather_S100000x128_S1000000x2x1_S1000000x2x128_2_0_n_n_0_2_1128 : GatherDims S100000x128 S1000000x2x1 S1000000x2x128 where
  offsetDims := [2]
  collapsedSliceDims := [0]
  operandBatchingDims := []
  startIndicesBatchingDims := []
  startIndexMap := [0]
  indexVectorDim := 2
  sliceSizes := ![1, 128]
  wf := gather_S100000x128_S1000000x2x1_S1000000x2x128_2_0_n_n_0_2_1128_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def dot_S8000x256_S256x2_S8000x2_1_0_0_1_n_n : DotDims S8000x256 S256x2 S8000x2 where
  lhsContracting := [1]
  rhsContracting := [0]
  lhsNonContracting := [0]
  rhsNonContracting := [1]
  lhsBatch := []
  rhsBatch := []
  wf := dot_S8000x256_S256x2_S8000x2_1_0_0_1_n_n_wf

abbrev win0_0 : Pipeline.Window sig grid0 :=
  Pipeline.Window.ofSpec (Memref.whole main_v7) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S8000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1000000x2 : Shape := ⟨2, ![1000000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩
abbrev S1000000x2x1 : Shape := ⟨3, ![1000000, 2, 1]⟩
abbrev S1000000x2x128 : Shape := ⟨3, ![1000000, 2, 128]⟩
abbrev S1000000x256 : Shape := ⟨2, ![1000000, 256]⟩
abbrev S1x256 : Shape := ⟨2, ![1, 256]⟩
abbrev S1x2 : Shape := ⟨2, ![1, 2]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000x2, .i32⟩
  | .hbm, ⟨2, _⟩ => ⟨S256x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S_, .i32⟩
  | .hbm, ⟨7, _⟩ => ⟨S1000000x2, .i32⟩
  | .hbm, ⟨8, _⟩ => ⟨S1000000x2, .i1⟩
  | .hbm, ⟨9, _⟩ => ⟨S_, .i32⟩
  | .hbm, ⟨10, _⟩ => ⟨S1000000x2, .i32⟩
  | .hbm, ⟨11, _⟩ => ⟨S1000000x2, .i32⟩
  | .hbm, ⟨12, _⟩ => ⟨S1000000x2, .i32⟩
  | .hbm, ⟨13, _⟩ => ⟨S1000000x2x1, .i32⟩
  | .hbm, ⟨14, _⟩ => ⟨S1000000x2x128, .f32⟩
  | .hbm, ⟨15, _⟩ => ⟨S1000000x256, .f32⟩
  | .hbm, ⟨16, _⟩ => ⟨S1000000x256, .f32⟩
  | .hbm, ⟨17, _⟩ => ⟨S1x256, .f32⟩
  | .hbm, ⟨18, _⟩ => ⟨S1000000x256, .f32⟩
  | .hbm, ⟨19, _⟩ => ⟨S1000000x256, .f32⟩
  | .hbm, ⟨20, _⟩ => ⟨S_, .f32⟩
  | .hbm, ⟨21, _⟩ => ⟨S1000000x256, .f32⟩
  | .hbm, ⟨22, _⟩ => ⟨S1000000x256, .f32⟩
  | .hbm, ⟨23, _⟩ => ⟨S1000000x2, .f32⟩
  | .hbm, ⟨24, _⟩ => ⟨S1x2, .f32⟩
  | .hbm, ⟨25, _⟩ => ⟨S1000000x2, .f32⟩
  | .hbm, ⟨26, _⟩ => ⟨S1000000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x128_S1000000x256 : S1000000x2x128.ShapeCasts S1000000x256
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  bcast_S_S1000000x256 : S_.BroadcastsInDim S1000000x256 (![] : Fin 0 → Fin S1000000x256.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  gather_S100000x128_S1000000x2x1_S1000000x2x128_2_0_n_n_0_2_1128_wf : GatherDims.WF S100000x128 S1000000x2x1 S1000000x2x128 [2] [0] [] [0] [] 2 ![1, 128]
  dot_S1000000x256_S256x256_S1000000x256_1_0_0_1_n_n_wf : DotDims.WF S1000000x256 S256x256 S1000000x256 [1] [0] [0] [1] [] []
  dot_S1000000x256_S256x2_S1000000x2_1_0_0_1_n_n_wf : DotDims.WF S1000000x256 S256x2 S1000000x2 [1] [0] [0] [1] [] []

variable [Facts₀]

def gather_S100000x128_S1000000x2x1_S1000000x2x128_2_0_n_n_0_2_1128 : GatherDims S100000x128 S1000000x2x1 S1000000x2x128 where
  offsetDims := [2]
  collapsedSliceDims := [0]
  operandBatchingDims := []
  startIndicesBatchingDims := []
  startIndexMap := [0]
  indexVectorDim := 2
  sliceSizes := ![1, 128]
  wf := gather_S100000x128_S1000000x2x1_S1000000x2x128_2_0_n_n_0_2_1128_wf
def dot_S1000000x256_S256x256_S1000000x256_1_0_0_1_n_n : DotDims S1000000x256 S256x256 S1000000x256 where
  lhsContracting := [1]
  rhsContracting := [0]
  lhsNonContracting := [0]
  rhsNonContracting := [1]
  lhsBatch := []
  rhsBatch := []
  wf := dot_S1000000x256_S256x256_S1000000x256_1_0_0_1_n_n_wf
def dot_S1000000x256_S256x2_S1000000x2_1_0_0_1_n_n : DotDims S1000000x256 S256x2 S1000000x2 where
  lhsContracting := [1]
  rhsContracting := [0]
  lhsNonContracting := [0]
  rhsNonContracting := [1]
  lhsBatch := []
  rhsBatch := []
  wf := dot_S1000000x256_S256x2_S1000000x2_1_0_0_1_n_n_wf

class Facts : Prop extends Facts₀ where

variable [Facts]
-- ==== Proof.KernelPayload.lean ====
/-
  One block of the kernel, read at an index.

  At a grid point the kernel holds 8000 rows of pair features `x`, the whole of `W1` and `W2`, and the two biases as
  single rows. It narrows `x`, `W1`, the rectified hidden block and `W2` to bf16 (the identity on extended reals),
  multiplies into zero accumulators (so each product is the plain sum over the contracted coordinate), adds each bias
  row to every row, and rectifies with the zero word. Row `p`, column `j` of what it stores is therefore
  `Σ_h max (Σ_k x[p,k]·W1[k,h] + b1[0,h]) 0 · W2[h,j] + b2[0,j]`.
-/
import proofs.«146844_j27101243638197_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp.Kernel

open Cert.KernelIdeal Cert.KernelIdeal.Gen Idealize.ShloMosaic Idealize.ShloMosaic.ValueIdx

/-! ## The two products' operand indices, axis by axis -/

theorem lhs1_0 (i : S8000x256.Idx) (q : dot_S8000x256_S256x256_S8000x256_1_0_0_1_n_n.contr.Idx) :
    (dot_S8000x256_S256x256_S8000x256_1_0_0_1_n_n.lhsIdx i q 0).val = (i 0).val := by
  unfold DotDims.lhsIdx
  rw [dif_neg (show ¬(0 : Fin S8000x256.rank) ∈ dot_S8000x256_S256x256_S8000x256_1_0_0_1_n_n.lhsBatch by decide), dif_pos (show (0 : Fin S8000x256.rank) ∈ dot_S8000x256_S256x256_S8000x256_1_0_0_1_n_n.lhsNonContracting by decide)]
  rfl
theorem lhs1_1 (i : S8000x256.Idx) (q : dot_S8000x256_S256x256_S8000x256_1_0_0_1_n_n.contr.Idx) :
    (dot_S8000x256_S256x256_S8000x256_1_0_0_1_n_n.lhsIdx i q 1).val = (q ⟨0, by decide⟩).val :=
  dot_S8000x256_S256x256_S8000x256_1_0_0_1_n_n.lhsIdx_val_of_single rfl i q
theorem rhs1_0 (i : S8000x256.Idx) (q : dot_S8000x256_S256x256_S8000x256_1_0_0_1_n_n.contr.Idx) :
    (dot_S8000x256_S256x256_S8000x256_1_0_0_1_n_n.rhsIdx i q 0).val = (q ⟨0, by decide⟩).val :=
  dot_S8000x256_S256x256_S8000x256_1_0_0_1_n_n.rhsIdx_val_of_single rfl i q
theorem rhs1_1 (i : S8000x256.Idx) (q : dot_S8000x256_S256x256_S8000x256_1_0_0_1_n_n.contr.Idx) :
    (dot_S8000x256_S256x256_S8000x256_1_0_0_1_n_n.rhsIdx i q 1).val = (i 1).val := by
  unfold DotDims.rhsIdx
  rw [dif_neg (show ¬(1 : Fin S256x256.rank) ∈ dot_S8000x256_S256x256_S8000x256_1_0_0_1_n_n.rhsBatch by decide), dif_pos (show (1 : Fin S256x256.rank) ∈ dot_S8000x256_S256x256_S8000x256_1_0_0_1_n_n.rhsNonContracting by decide)]
  rfl

theorem lhs2_0 (i : S8000x2.Idx) (q : dot_S8000x256_S256x2_S8000x2_1_0_0_1_n_n.contr.Idx) :
    (dot_S8000x256_S256x2_S8000x2_1_0_0_1_n_n.lhsIdx i q 0).val = (i 0).val := by
  unfold DotDims.lhsIdx
  rw [dif_neg (show ¬(0 : Fin S8000x256.rank) ∈ dot_S8000x256_S256x2_S8000x2_1_0_0_1_n_n.lhsBatch by decide), dif_pos (show (0 : Fin S8000x256.rank) ∈ dot_S8000x256_S256x2_S8000x2_1_0_0_1_n_n.lhsNonContracting by decide)]
  rfl
theorem lhs2_1 (i : S8000x2.Idx) (q : dot_S8000x256_S256x2_S8000x2_1_0_0_1_n_n.contr.Idx) :
    (dot_S8000x256_S256x2_S8000x2_1_0_0_1_n_n.lhsIdx i q 1).val = (q ⟨0, by decide⟩).val :=
  dot_S8000x256_S256x2_S8000x2_1_0_0_1_n_n.lhsIdx_val_of_single rfl i q
theorem rhs2_0 (i : S8000x2.Idx) (q : dot_S8000x256_S256x2_S8000x2_1_0_0_1_n_n.contr.Idx) :
    (dot_S8000x256_S256x2_S8000x2_1_0_0_1_n_n.rhsIdx i q 0).val = (q ⟨0, by decide⟩).val :=
  dot_S8000x256_S256x2_S8000x2_1_0_0_1_n_n.rhsIdx_val_of_single rfl i q
theorem rhs2_1 (i : S8000x2.Idx) (q : dot_S8000x256_S256x2_S8000x2_1_0_0_1_n_n.contr.Idx) :
    (dot_S8000x256_S256x2_S8000x2_1_0_0_1_n_n.rhsIdx i q 1).val = (i 1).val := by
  unfold DotDims.rhsIdx
  rw [dif_neg (show ¬(1 : Fin S256x2.rank) ∈ dot_S8000x256_S256x2_S8000x2_1_0_0_1_n_n.rhsBatch by decide), dif_pos (show (1 : Fin S256x2.rank) ∈ dot_S8000x256_S256x2_S8000x2_1_0_0_1_n_n.rhsNonContracting by decide)]
  rfl

/-! ## The two products at an index -/

/-- The first product into a zero accumulator: entry `(p, h)` is the sum over `k` of `l[p,k] · r[k,h]`. -/
theorem matmul1_apply (l : FVec Ideal S8000x256 .bf16) (r : FVec Ideal S256x256 .bf16) (p : Fin 8000) (c : Fin 256) :
    matmul dot_S8000x256_S256x256_S8000x256_1_0_0_1_n_n none l r (constant S8000x256 .f32 0x00000000#32) (ix2 p c) = ∑ k : Fin 256, l (ix2 p k) * r (ix2 k c) := by
  refine (Ideal.matmul_constant_zero_apply dot_S8000x256_S256x256_S8000x256_1_0_0_1_n_n none l r (ix2 p c)).trans ?_
  rw [← Equiv.sum_comp (contrEquiv1 dot_S8000x256_S256x256_S8000x256_1_0_0_1_n_n 256 rfl rfl).symm]
  refine Finset.sum_congr rfl fun k _ => ?_
  have hk := contrEquiv1_symm_val dot_S8000x256_S256x256_S8000x256_1_0_0_1_n_n 256 rfl rfl k
  have el : dot_S8000x256_S256x256_S8000x256_1_0_0_1_n_n.lhsIdx (ix2 p c) ((contrEquiv1 dot_S8000x256_S256x256_S8000x256_1_0_0_1_n_n 256 rfl rfl).symm k) = ix2 p k := funext fun a => Fin.ext (by
    match a with
    | ⟨0, _⟩ => exact lhs1_0 _ _
    | ⟨1, _⟩ => exact (lhs1_1 _ _).trans hk)
  have er : dot_S8000x256_S256x256_S8000x256_1_0_0_1_n_n.rhsIdx (ix2 p c) ((contrEquiv1 dot_S8000x256_S256x256_S8000x256_1_0_0_1_n_n 256 rfl rfl).symm k) = ix2 k c := funext fun a => Fin.ext (by
    match a with
    | ⟨0, _⟩ => exact (rhs1_0 _ _).trans hk
    | ⟨1, _⟩ => exact rhs1_1 _ _)
  rw [el, er]

/-- The second product into a zero accumulator: entry `(p, j)` is the sum over `h` of `l[p,h] · r[h,j]`. -/
theorem matmul2_apply (l : FVec Ideal S8000x256 .bf16) (r : FVec Ideal S256x2 .bf16) (p : Fin 8000) (c : Fin 2) :
    matmul dot_S8000x256_S256x2_S8000x2_1_0_0_1_n_n none l r (constant S8000x2 .f32 0x00000000#32) (ix2 p c) = ∑ k : Fin 256, l (ix2 p k) * r (ix2 k c) := by
  refine (Ideal.matmul_constant_zero_apply dot_S8000x256_S256x2_S8000x2_1_0_0_1_n_n none l r (ix2 p c)).trans ?_
  rw [← Equiv.sum_comp (contrEquiv1 dot_S8000x256_S256x2_S8000x2_1_0_0_1_n_n 256 rfl rfl).symm]
  refine Finset.sum_congr rfl fun k _ => ?_
  have hk := contrEquiv1_symm_val dot_S8000x256_S256x2_S8000x2_1_0_0_1_n_n 256 rfl rfl k
  have el : dot_S8000x256_S256x2_S8000x2_1_0_0_1_n_n.lhsIdx (ix2 p c) ((contrEquiv1 dot_S8000x256_S256x2_S8000x2_1_0_0_1_n_n 256 rfl rfl).symm k) = ix2 p k := funext fun a => Fin.ext (by
    match a with
    | ⟨0, _⟩ => exact lhs2_0 _ _
    | ⟨1, _⟩ => exact (lhs2_1 _ _).trans hk)
  have er : dot_S8000x256_S256x2_S8000x2_1_0_0_1_n_n.rhsIdx (ix2 p c) ((contrEquiv1 dot_S8000x256_S256x2_S8000x2_1_0_0_1_n_n 256 rfl rfl).symm k) = ix2 k c := funext fun a => Fin.ext (by
    match a with
    | ⟨0, _⟩ => exact (rhs2_0 _ _).trans hk
    | ⟨1, _⟩ => exact rhs2_1 _ _)
  rw [el, er]

/-! ## The stored block at an index -/

/-- Entry `(p, j)` of the block the body stores, from the blocks it loads. -/
theorem payload_apply (v0 : Vec Ideal S8000x256 .f32) (v3 : Vec Ideal S256x256 .f32) (v6 : Vec Ideal S1x256 .f32)
    (v13 : Vec Ideal S256x2 .f32) (v16 : Vec Ideal S1x2 .f32) (p : Fin 8000) (j : Fin 2) :
    k0_pay1 (F := Ideal) v0 v3 v6 v13 v16 (ix2 p j)
      = (∑ h : Fin 256, max ((∑ k : Fin 256, v0 (ix2 p k) * v3 (ix2 k h)) + v6 (ix2 (0 : Fin 1) h)) (Ideal.ofBits .f32 0x00000000#32)
          * v13 (ix2 h j)) + v16 (ix2 (0 : Fin 1) j) := by
  unfold k0_pay1
  simp only [shapeCast_self]
  rw [addf_apply, matmul2_apply, broadcastTo_1b_ab_apply]
  refine congrArg (· + v16 (ix2 (0 : Fin 1) j)) (Finset.sum_congr rfl fun h _ => ?_)
  rw [truncf_apply, truncf_apply, maximumf_apply, addf_apply, matmul1_apply, broadcastTo_1b_ab_apply]
  rfl

end Cert.Mlp.Kernel

end
-- ==== Proof.MlpSpec.lean ====
/-
  The function both programs compute, index by index, on the extended reals.

  From a matrix `x` of pair features (one row of 256 per node pair), weights `W1`, `W2` and biases `b1`, `b2`:
  the hidden unit `h` of pair `e` is `max (Σ_k x[e,k] · W1[k,h] + b1[h]) 0`, and logit `j` of pair `e` is
  `Σ_h hidden[e,h] · W2[h,j] + b2[j]`. Nothing here needs the inputs finite: both programs form the same sums of the
  same products in the same nesting, so no law of the extended reals beyond reading each operation at an index is used.
  The zero of the rectifier is kept as the word both programs print for it.
-/
import Idealize.ShloMosaic.PureOps.Ideal
import Idealize.ShloMosaic.Lib.ValueIdx

noncomputable section

open scoped BigOperators

namespace Cert.Mlp

open Idealize.ShloMosaic Idealize.ShloMosaic.ValueIdx

/-- The rectified hidden unit `h` of pair `e`. -/
def hidden (x : FVec Ideal ⟨2, ![1000000, 256]⟩ .f32) (W1 : FVec Ideal ⟨2, ![256, 256]⟩ .f32) (b1 : FVec Ideal ⟨1, ![256]⟩ .f32)
    (e : Fin 1000000) (h : Fin 256) : EReal :=
  max ((∑ k : Fin 256, x (ix2 e k) * W1 (ix2 k h)) + b1 (ix1 h)) (Ideal.ofBits .f32 0x00000000#32)

/-- The two logits of every pair: the second dense layer over the rectified first. -/
def logits (x : FVec Ideal ⟨2, ![1000000, 256]⟩ .f32) (W1 : FVec Ideal ⟨2, ![256, 256]⟩ .f32) (b1 : FVec Ideal ⟨1, ![256]⟩ .f32)
    (W2 : FVec Ideal ⟨2, ![256, 2]⟩ .f32) (b2 : FVec Ideal ⟨1, ![2]⟩ .f32) : FVec Ideal ⟨2, ![1000000, 2]⟩ .f32 :=
  fun i => (∑ h : Fin 256, hidden x W1 b1 (i 0) h * W2 (ix2 h (i 1))) + b2 (ix1 (i 1))

/-- Logit `j` of pair `e`. -/
theorem logits_apply (x : FVec Ideal ⟨2, ![1000000, 256]⟩ .f32) (W1 : FVec Ideal ⟨2, ![256, 256]⟩ .f32) (b1 : FVec Ideal ⟨1, ![256]⟩ .f32)
    (W2 : FVec Ideal ⟨2, ![256, 2]⟩ .f32) (b2 : FVec Ideal ⟨1, ![2]⟩ .f32) (e : Fin 1000000) (j : Fin 2) :
    logits x W1 b1 W2 b2 (ix2 e j) = (∑ h : Fin 256, hidden x W1 b1 e h * W2 (ix2 h j)) + b2 (ix1 j) := rfl

end Cert.Mlp

end
-- ==== Proof.KernelArray.lean ====
/-
  From blocks to the array: what the kernel's result holds after the run.

  Grid point `t` (of 125) stages rows `8000·t … 8000·t + 7999` of the pair features, the whole of both weight matrices
  and both bias rows, and writes back rows `8000·t … 8000·t + 7999` of the result. Entry `(p, j)` of the block it writes
  is the specification's logit at pair `8000·t + p`, so the block is block `t` of the specification's array; the 125
  blocks tile the million rows (row `r` lies in block `r / 8000`), so the result array is the specification's.
  The bias rows reach the kernel as `[1, n]` reshapes of the bias vectors, read back here at `(0, h)`.
-/
import proofs.«146844_j27101243638197_1_alg».proof.Proof.Gen.KernelIdeal.Value
import proofs.«146844_j27101243638197_1_alg».proof.Proof.KernelPayload
import proofs.«146844_j27101243638197_1_alg».proof.Proof.MlpSpec

set_option maxRecDepth 16384

noncomputable section

open scoped BigOperators

namespace Cert.Mlp.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The first bias as the kernel's call finds it: the one row of its `[1, 256]` reshape. -/
def biasRow1 (c : Dev nD) : FVec Ideal ⟨1, ![256]⟩ .f32 := fun i => V m c main_v8 (ix2 (0 : Fin 1) (i 0))
/-- The second bias as the kernel's call finds it: the one row of its `[1, 2]` reshape. -/
def biasRow2 (c : Dev nD) : FVec Ideal ⟨1, ![2]⟩ .f32 := fun i => V m c main_v9 (ix2 (0 : Fin 1) (i 0))

/-- The specification at the arrays the call finds. -/
abbrev spec (c : Dev nD) : FVec Ideal ⟨2, ![1000000, 2]⟩ .f32 :=
  logits (V m c main_v7) (V m c main_arg2) (biasRow1 m c) (V m c main_arg4) (biasRow2 m c)

/-- The printed index maps over the grid: the features' and the result's block row is the point, every other block
    index is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 125 := lt_of_lt_of_eq t.isLt N_0

/-- Row `p` of point `t`'s block is row `8000·t + p` of the array. -/
def row (t : Fin cfg0.N) (p : Fin 8000) : Fin 1000000 := ⟨t.val * 8000 + p.val, by have := point_lt t; have := p.isLt; omega⟩

/-- Where the result's block at `t` sits in the array. -/
theorem emb_out (t : Fin cfg0.N) (p : Fin 8000) (j : Fin 2) : ((cfg0.win 5).blk t).view.emb (ix2 p j) = ix2 (row t p) j := by
  obtain ⟨-, -, -, -, -, -, -, -, -, -, e0, e1⟩ := index_maps t
  funext a; apply Fin.ext
  match a with
  | ⟨0, _⟩ => show win0_5.index t (0 : Fin 2) * 8000 + 1 * p.val = t.val * 8000 + p.val; omega
  | ⟨1, _⟩ => show win0_5.index t (1 : Fin 2) * 2 + 1 * j.val = j.val; omega

/-- The features' block at `t` read at `(p, k)`. -/
theorem blk_x (c : Dev nD) (t : Fin cfg0.N) (p : Fin 8000) (k : Fin 256) : iblk m c 0 t (ix2 p k) = V m c main_v7 (ix2 (row t p) k) := by
  obtain ⟨e0, e1, -⟩ := index_maps t
  show V m c main_v7 (((cfg0.win 0).blk t).view.emb (ix2 p k)) = V m c main_v7 (ix2 (row t p) k)
  refine congrArg (V m c main_v7) (funext fun a => Fin.ext ?_)
  match a with
  | ⟨0, _⟩ => show win0_0.index t (0 : Fin 2) * 8000 + 1 * p.val = t.val * 8000 + p.val; omega
  | ⟨1, _⟩ => show win0_0.index t (1 : Fin 2) * 256 + 1 * k.val = k.val; omega

/-- The first weights' block is the whole matrix. -/
theorem blk_w1 (c : Dev nD) (t : Fin cfg0.N) (k h : Fin 256) : iblk m c 1 t (ix2 k h) = V m c main_arg2 (ix2 k h) := by
  obtain ⟨-, -, e0, e1, -⟩ := index_maps t
  show V m c main_arg2 (((cfg0.win 1).blk t).view.emb (ix2 k h)) = V m c main_arg2 (ix2 k h)
  refine congrArg (V m c main_arg2) (funext fun a => Fin.ext ?_)
  match a with
  | ⟨0, _⟩ => show win0_1.index t (0 : Fin 2) * 256 + 1 * k.val = k.val; omega
  | ⟨1, _⟩ => show win0_1.index t (1 : Fin 2) * 256 + 1 * h.val = h.val; omega

/-- The first bias row's block is the whole row. -/
theorem blk_b1 (c : Dev nD) (t : Fin cfg0.N) (h : Fin 256) : iblk m c 2 t (ix2 (0 : Fin 1) h) = V m c main_v8 (ix2 (0 : Fin 1) h) := by
  obtain ⟨-, -, -, -, e0, e1, -⟩ := index_maps t
  show V m c main_v8 (((cfg0.win 2).blk t).view.emb (ix2 (0 : Fin 1) h)) = V m c main_v8 (ix2 (0 : Fin 1) h)
  refine congrArg (V m c main_v8) (funext fun a => Fin.ext ?_)
  match a with
  | ⟨0, _⟩ => show win0_2.index t (0 : Fin 2) * 1 + 1 * 0 = 0; omega
  | ⟨1, _⟩ => show win0_2.index t (1 : Fin 2) * 256 + 1 * h.val = h.val; omega

/-- The second weights' block is the whole matrix. -/
theorem blk_w2 (c : Dev nD) (t : Fin cfg0.N) (h : Fin 256) (j : Fin 2) : iblk m c 3 t (ix2 h j) = V m c main_arg4 (ix2 h j) := by
  obtain ⟨-, -, -, -, -, -, e0, e1, -⟩ := index_maps t
  show V m c main_arg4 (((cfg0.win 3).blk t).view.emb (ix2 h j)) = V m c main_arg4 (ix2 h j)
  refine congrArg (V m c main_arg4) (funext fun a => Fin.ext ?_)
  match a with
  | ⟨0, _⟩ => show win0_3.index t (0 : Fin 2) * 256 + 1 * h.val = h.val; omega
  | ⟨1, _⟩ => show win0_3.index t (1 : Fin 2) * 2 + 1 * j.val = j.val; omega

/-- The second bias row's block is the whole row. -/
theorem blk_b2 (c : Dev nD) (t : Fin cfg0.N) (j : Fin 2) : iblk m c 4 t (ix2 (0 : Fin 1) j) = V m c main_v9 (ix2 (0 : Fin 1) j) := by
  obtain ⟨-, -, -, -, -, -, -, -, e0, e1, -⟩ := index_maps t
  show V m c main_v9 (((cfg0.win 4).blk t).view.emb (ix2 (0 : Fin 1) j)) = V m c main_v9 (ix2 (0 : Fin 1) j)
  refine congrArg (V m c main_v9) (funext fun a => Fin.ext ?_)
  match a with
  | ⟨0, _⟩ => show win0_4.index t (0 : Fin 2) * 1 + 1 * 0 = 0; omega
  | ⟨1, _⟩ => show win0_4.index t (1 : Fin 2) * 2 + 1 * j.val = j.val; omega

/-- What point `t` writes back is block `t` of the specification's array. -/
theorem flushed_eq (c : Dev nD) (t : Fin cfg0.N) :
    (dats m 0 c).flushed 5 t = ((cfg0.win 5).blk t).view.read (Elt Ideal) (spec m c) := by
  rw [Cert.KernelIdeal.Value.flushed5]
  unfold out0_5
  rw [View.canon_unit_zero origin]
  simp only [View.ld_unit_zero (S := S8000x256) origin, View.ld_unit_zero (S := S256x256) origin,
    View.ld_unit_zero (S := S1x256) origin, View.ld_unit_zero (S := S256x2) origin, View.ld_unit_zero (S := S1x2) origin]
  funext y
  obtain ⟨p, j, rfl⟩ : ∃ (p : Fin 8000) (j : Fin 2), y = ix2 p j := ⟨y 0, y 1, eq_ix2 y⟩
  show k0_pay1 (iblk m c 0 t) (iblk m c 1 t) (iblk m c 2 t) (iblk m c 3 t) (iblk m c 4 t) (ix2 p j)
    = spec m c (((cfg0.win 5).blk t).view.emb (ix2 p j))
  refine (payload_apply (iblk m c 0 t) (iblk m c 1 t) (iblk m c 2 t) (iblk m c 3 t) (iblk m c 4 t) p j).trans ?_
  rw [emb_out]
  unfold spec
  rw [logits_apply]
  unfold hidden
  simp only [blk_x m c t, blk_w1 m c t, blk_b1 m c t, blk_w2 m c t, blk_b2 m c t]
  rfl

/-- An index of the array is in point `t`'s block iff each coordinate is in the block's range on its axis. -/
theorem mem_blk (t : Fin cfg0.N) (i : S1000000x2.Idx) :
    i ∈ ((cfg0.win 5).blk t).view.set ↔ ∀ a : Fin 2, win0_5.index t a * S8000x2.size a ≤ (i a).val ∧ (i a).val < win0_5.index t a * S8000x2.size a + S8000x2.size a := by
  show i ∈ ((View.whole main_v10).slice (win0_5.rect t)).set ↔ _
  rw [View.set_slice_whole, Rect.mem_set_unit]
  exact Iff.rfl

/-- Every row of the result lies in the block of the point `row / 8000`. -/
theorem cover (i : S1000000x2.Idx) : ∃ t : Fin cfg0.N, (cfg0.win 5).flush t = true ∧ i ∈ ((cfg0.win 5).blk t).view.set := by
  have hi0 : (i 0).val < 1000000 := (i 0).isLt
  have hi1 : (i 1).val < 2 := (i 1).isLt
  let t : Fin cfg0.N := ⟨(i 0).val / 8000, lt_of_lt_of_eq (by omega : (i 0).val / 8000 < 125) N_0.symm⟩
  obtain ⟨-, -, -, -, -, -, -, -, -, -, e0, e1⟩ := index_maps t
  have ht : t.val = (i 0).val / 8000 := rfl
  refine ⟨t, flush0_5 t, ?_⟩
  rw [mem_blk]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 2 ≤ (i 1).val ∧ (i 1).val < win0_5.index t (1 : Fin 2) * 2 + 2; omega

/-- The result array after the run is the specification at the arrays the call finds. -/
theorem final (c : Dev nD) : (dats m 0 c).arrAt 5 cfg0.N = spec m c :=
  (dats m 0 c).arrAt_eq_of_cover 5 (spec m c) (fun t _ => flushed_eq m c t) cover

end Cert.Mlp.Kernel

end
-- ==== Proof.KernelRun.lean ====
/-
  What the kernel's call finds in its arrays, and the kernel's whole run.

  Before its call the kernel's program gathers the pair features on the host — for each pair and each of its two nodes
  the node's 128-entry embedding row (a negative index wrapped by the table's length, then clamped by the gather), laid
  side by side as one row of 256 — and reshapes each bias vector to a single row. The weight matrices reach the call as
  launched. So the specification at the arrays the call finds is the specification at the gathered features, the two
  weight matrices and the two bias vectors themselves.
-/
import proofs.«146844_j27101243638197_1_alg».proof.Proof.KernelArray
import Idealize.ShloMosaic.Lib.StableHlo.Run

noncomputable section

open scoped BigOperators

namespace Cert.Mlp.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The pair features, as the kernel's program gathers them on the host from the embedding table and the node indices. -/
def features (a0 : Vec Ideal S100000x128 .f32) (a1 : Vec Ideal S1000000x2 .i32) : Vec Ideal S1000000x256 .f32 :=
  shapeCast S1000000x256 (Host.gather gather_S100000x128_S1000000x2x1_S1000000x2x128_2_0_n_n_0_2_1128 a0
    (broadcastInDim S1000000x2x1 ![0, 1] bcast_S1000000x2_S1000000x2x1_0_1
      (select (cmpi .slt a1 (broadcastInDim S1000000x2 ![] bcast_S_S1000000x2 (constantI S_ 32 0#32)))
        (addi a1 (broadcastInDim S1000000x2 ![] bcast_S_S1000000x2 (constantI S_ 32 100000#32))) a1)))
    shapeCasts_S1000000x2x128_S1000000x256

/-- The call finds the gathered features in its first operand. -/
theorem found_features (c : Dev nD) :
    (V m c main_v7 : S1000000x256.Idx → EReal) = features (m ((c : Thread nD τ).loc main_arg0)) (m ((c : Thread nD τ).loc main_arg1)) := by
  dsimp only [Gen.V, Gen.hostOps0]; after_results; rfl

/-- The call finds the first bias as the one row of a `[1, 256]` array. -/
theorem found_bias1 (c : Dev nD) :
    (V m c main_v8 : S1x256.Idx → EReal) = shapeCast S1x256 (m ((c : Thread nD τ).loc main_arg3)) shapeCasts_S256_S1x256 := by
  dsimp only [Gen.V, Gen.hostOps0]; after_results; rfl

/-- The call finds the second bias as the one row of a `[1, 2]` array. -/
theorem found_bias2 (c : Dev nD) :
    (V m c main_v9 : S1x2.Idx → EReal) = shapeCast S1x2 (m ((c : Thread nD τ).loc main_arg5)) shapeCasts_S2_S1x2 := by
  dsimp only [Gen.V, Gen.hostOps0]; after_results; rfl

/-- That row, read back, is the first bias. -/
theorem biasRow1_eq (c : Dev nD) : biasRow1 m c = m ((c : Thread nD τ).loc main_arg3) := by
  funext i
  obtain ⟨h, rfl⟩ : ∃ h : Fin 256, i = ix1 h := ⟨i 0, eq_ix1 i⟩
  show V m c main_v8 (ix2 (0 : Fin 1) h) = _
  rw [found_bias1]
  exact shapeCast_a_1a_apply _ _ _ _

/-- That row, read back, is the second bias. -/
theorem biasRow2_eq (c : Dev nD) : biasRow2 m c = m ((c : Thread nD τ).loc main_arg5) := by
  funext i
  obtain ⟨j, rfl⟩ : ∃ j : Fin 2, i = ix1 j := ⟨i 0, eq_ix1 i⟩
  show V m c main_v9 (ix2 (0 : Fin 1) j) = _
  rw [found_bias2]
  exact shapeCast_a_1a_apply _ _ _ _

/-- The specification at what the call finds is the specification at the program's arguments. -/
theorem spec_eq (c : Dev nD) :
    spec m c = logits (features (m ((c : Thread nD τ).loc main_arg0)) (m ((c : Thread nD τ).loc main_arg1)))
      (m ((c : Thread nD τ).loc main_arg2)) (m ((c : Thread nD τ).loc main_arg3))
      (m ((c : Thread nD τ).loc main_arg4)) (m ((c : Thread nD τ).loc main_arg5)) := by
  unfold spec
  rw [found_features, biasRow1_eq, biasRow2_eq, V_main_arg2, V_main_arg4]

/-- Every weakly fair execution of the kernel's program ends with the result array at the specification of the
    arguments, the arguments unchanged. -/
theorem run : θ_run defs (onTc (τ := τ) (main (F := Ideal))) ⟨m, fun _ => 0, ρ⟩ fun r => ∀ c : Dev nD,
      r.2.mem ((c : Thread nD τ).loc main_v10)
        = logits (features (m ((c : Thread nD τ).loc main_arg0)) (m ((c : Thread nD τ).loc main_arg1)))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (spec_eq m c)), (h c).2⟩)
    (Cert.KernelIdeal.Value.run_blocks m ρ)

end Cert.Mlp.Kernel

end
-- ==== Proof.RefSide.lean ====
/-
  The reference, read at an index, is the specification.

  The reference gathers the pair features on the host (`x`, kept whole here: the kernel's program builds the very same
  array before its call), then applies `x @ W1 + b1`, the rectifier, and `h @ W2 + b2`. Each of its operations read at
  an index gives: a `dot_general` the sum over the contracted coordinate of the products, a bias broadcast the bias at
  the column, the rectifier the maximum with the zero word. Index `(e, j)` of the result is therefore
  `Σ_h max (Σ_k x[e,k]·W1[k,h] + b1[h]) 0 · W2[h,j] + b2[j]`.
-/
import proofs.«146844_j27101243638197_1_alg».proof.Proof.Gen.ReferenceIdeal.Read
import proofs.«146844_j27101243638197_1_alg».proof.Proof.MlpSpec

noncomputable section

open scoped BigOperators

namespace Cert.Mlp.Ref

open Cert.ReferenceIdeal Cert.ReferenceIdeal.Read Idealize.ShloMosaic Idealize.ShloMosaic.ValueIdx

/-- The second product's left operand is read at row `e`, contracted coordinate `h`. -/
theorem lidx13 (e : Fin 1000000) (j : Fin 2) (k : Fin 256) : lidx_main_v13 (ix2 e j) k = ix2 e k :=
  funext fun a => Fin.ext (by match a with | ⟨0, _⟩ => rfl | ⟨1, _⟩ => rfl)
/-- … and its right operand at contracted coordinate `h`, column `j`. -/
theorem ridx13 (e : Fin 1000000) (j : Fin 2) (k : Fin 256) : ridx_main_v13 (ix2 e j) k = ix2 k j :=
  funext fun a => Fin.ext (by match a with | ⟨0, _⟩ => rfl | ⟨1, _⟩ => rfl)
/-- The first product's left operand is read at row `e`, contracted coordinate `k`. -/
theorem lidx8 (e : Fin 1000000) (h : Fin 256) (k : Fin 256) : lidx_main_v8 (ix2 e h) k = ix2 e k :=
  funext fun a => Fin.ext (by match a with | ⟨0, _⟩ => rfl | ⟨1, _⟩ => rfl)
/-- … and its right operand at contracted coordinate `k`, column `h`. -/
theorem ridx8 (e : Fin 1000000) (h : Fin 256) (k : Fin 256) : ridx_main_v8 (ix2 e h) k = ix2 k h :=
  funext fun a => Fin.ext (by match a with | ⟨0, _⟩ => rfl | ⟨1, _⟩ => rfl)
/-- The first bias, broadcast twice, is read at the column. -/
theorem bias1_idx (e : Fin 1000000) (h : Fin 256) : idx_main_v9 (idx_main_v10 (ix2 e h)) = ix1 h :=
  funext fun a => Fin.ext (by match a with | ⟨0, _⟩ => rfl)
/-- The second bias, broadcast twice, is read at the column. -/
theorem bias2_idx (e : Fin 1000000) (j : Fin 2) : idx_main_v14 (idx_main_v15 (ix2 e j)) = ix1 j :=
  funext fun a => Fin.ext (by match a with | ⟨0, _⟩ => rfl)

/-- The reference's rectified first layer at `(e, h)` is the specification's hidden unit. -/
theorem hidden_eq (x0 : (⟨S100000x128, .f32⟩ : BufTy).Contents (Elt Ideal)) (x1 : (⟨S1000000x2, .i32⟩ : BufTy).Contents (Elt Ideal))
    (x2 : (⟨S256x256, .f32⟩ : BufTy).Contents (Elt Ideal)) (x3 : (⟨S256, .f32⟩ : BufTy).Contents (Elt Ideal))
    (e : Fin 1000000) (h : Fin 256) :
    val_main_v12 (F := Ideal) x0 x1 x2 x3 (ix2 e h) = hidden (val_main_v7 (F := Ideal) x0 x1) x2 x3 e h := by
  rw [val_main_v12_apply, val_main_v11_apply, val_main_v8_apply, val_main_v10_apply, val_main_v9_apply,
    val_main_call0_v0_apply, val_main_call0_cst_apply, bias1_idx]
  simp only [lidx8, ridx8]
  rfl

/-- The reference's result, as a function of its arguments, is the specification at the gathered pair features. -/
theorem result_eq_logits (x0 : (⟨S100000x128, .f32⟩ : BufTy).Contents (Elt Ideal)) (x1 : (⟨S1000000x2, .i32⟩ : BufTy).Contents (Elt Ideal))
    (x2 : (⟨S256x256, .f32⟩ : BufTy).Contents (Elt Ideal)) (x3 : (⟨S256, .f32⟩ : BufTy).Contents (Elt Ideal))
    (x4 : (⟨S256x2, .f32⟩ : BufTy).Contents (Elt Ideal)) (x5 : (⟨S2, .f32⟩ : BufTy).Contents (Elt Ideal)) :
    val_main_v16 (F := Ideal) x0 x1 x2 x3 x4 x5 = logits (val_main_v7 (F := Ideal) x0 x1) x2 x3 x4 x5 := by
  funext i
  obtain ⟨e, j, rfl⟩ : ∃ (e : Fin 1000000) (j : Fin 2), i = ix2 e j := ⟨i 0, i 1, eq_ix2 i⟩
  rw [val_main_v16_apply, val_main_v13_apply, val_main_v15_apply, val_main_v14_apply, bias2_idx, logits_apply]
  simp only [lidx13, ridx13, hidden_eq]
  rfl

end Cert.Mlp.Ref

end
-- ==== Proof.lean ====
/-
  The kernel and its reference compute the same two logits for every node pair, on the extended reals.

  Both programs gather, for each of the million node pairs, the two nodes' embedding rows side by side as 256 features
  (the same host operations in both), then apply a dense layer with bias, the rectifier, and a second dense layer with
  bias: logit `j` of pair `e` is `Σ_h max (Σ_k x[e,k]·W1[k,h] + b1[h]) 0 · W2[h,j] + b2[j]`. The reference does this on the
  whole arrays; the kernel does it 8000 pairs at a time over 125 grid points, narrowing its matrix operands to bf16 —
  the identity on extended reals — and accumulating each product into zero. The sums and products are nested alike on
  both sides, so the equality needs no law of the extended reals and never uses that the inputs are finite.

  The three frames are the kernel's generated frames and the reference's generated run with its result dropped; the
  idealization rewrote nothing, so there is nothing to preserve; the equivalence is the kernel's run (blocks assembled
  into the array) beside the reference's run read at an index, both at the one specification.
-/
import proofs.«146844_j27101243638197_1_alg».proof.Defs
import proofs.«146844_j27101243638197_1_alg».proof.Proof.Gen.Kernel
import proofs.«146844_j27101243638197_1_alg».proof.Proof.Gen.Kernel.Skeleton
import proofs.«146844_j27101243638197_1_alg».proof.Proof.Gen.Kernel.Launch
import proofs.«146844_j27101243638197_1_alg».proof.Proof.Gen.Kernel.Points
import proofs.«146844_j27101243638197_1_alg».proof.Proof.Gen.Kernel.Frame
import proofs.«146844_j27101243638197_1_alg».proof.Proof.Gen.KernelIdeal
import proofs.«146844_j27101243638197_1_alg».proof.Proof.Gen.KernelIdeal.Skeleton
import proofs.«146844_j27101243638197_1_alg».proof.Proof.Gen.KernelIdeal.Launch
import proofs.«146844_j27101243638197_1_alg».proof.Proof.Gen.KernelIdeal.Points
import proofs.«146844_j27101243638197_1_alg».proof.Proof.Gen.KernelIdeal.Frame
import proofs.«146844_j27101243638197_1_alg».proof.Proof.Gen.ReferenceIdeal
import proofs.«146844_j27101243638197_1_alg».proof.Proof.Gen.Pre_finite_inputs
import proofs.«146844_j27101243638197_1_alg».proof.Proof.KernelRun
import proofs.«146844_j27101243638197_1_alg».proof.Proof.RefSide
import Idealize.ShloMosaic.Adequacy
import Idealize.ShloMosaic.Init

noncomputable section

namespace Cert.Proof

open Idealize.ShloMosaic Idealize.ShloMosaic.TcCoe Idealize.SL.Sem

/-- The features the kernel's program gathers are the features the reference gathers: the same host operations of the
    same table and indices. -/
theorem features_eq (a0 : Vec Ideal Cert.KernelIdeal.S100000x128 .f32) (a1 : Vec Ideal Cert.KernelIdeal.S1000000x2 .i32) :
    Cert.Mlp.Kernel.features a0 a1 = Cert.ReferenceIdeal.Read.val_main_v7 (F := Ideal) a0 a1 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the specification of the (agreeing) arguments. -/
theorem algebraic : Cert.algebraic_KernelIdeal_ReferenceIdeal := by
  intro m ρ m' ρ' _ hagree
  refine ⟨_, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Mlp.Ref.result_eq_logits,
    (hagree c).1, (hagree c).2.1, (hagree c).2.2.1, (hagree c).2.2.2.1, (hagree c).2.2.2.2.1, (hagree c).2.2.2.2.2, features_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
